-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S10000x128 : Shape := ⟨2, ![10000, 128]⟩
abbrev S128x64 : Shape := ⟨2, ![128, 64]⟩
abbrev S1x64 : Shape := ⟨2, ![1, 64]⟩
abbrev S50000x64 : Shape := ⟨2, ![50000, 64]⟩
abbrev S10000x64 : Shape := ⟨2, ![10000, 64]⟩

abbrev nBuf : Space → Nat
  | .hbm => 83
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S50000, .f32⟩
  | .hbm, ⟨31, _⟩ => ⟨S640000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S128x128, .bf16⟩
  | .hbm, ⟨41, _⟩ => ⟨S128x128, .f32⟩
  | .hbm, ⟨42, _⟩ => ⟨S128x128, .bf16⟩
  | .hbm, ⟨43, _⟩ => ⟨S50000x128, .bf16⟩
  | .hbm, ⟨44, _⟩ => ⟨S50000x128, .bf16⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S50000x128, .f32⟩
  | .hbm, ⟨58, _⟩ => ⟨S640000x1, .i32⟩
  | .hbm, ⟨59, _⟩ => ⟨S50000x128, .f32⟩
  | .hbm, ⟨60, _⟩ => ⟨S_, .f32⟩
  | .hbm, ⟨61, _⟩ => ⟨S640000, .f32⟩
  | .hbm, ⟨62, _⟩ => ⟨S_, .f32⟩
  | .hbm, ⟨63, _⟩ => ⟨S50000, .f32⟩
  | .hbm, ⟨64, _⟩ => ⟨S640000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S128x128, .bf16⟩
  | .hbm, ⟨74, _⟩ => ⟨S128x128, .f32⟩
  | .hbm, ⟨75, _⟩ => ⟨S128x128, .bf16⟩
  | .hbm, ⟨76, _⟩ => ⟨S128x64, .f32⟩
  | .hbm, ⟨77, _⟩ => ⟨S128x64, .bf16⟩
  | .hbm, ⟨78, _⟩ => ⟨S50000x128, .bf16⟩
  | .hbm, ⟨79, _⟩ => ⟨S50000x128, .bf16⟩
  | .hbm, ⟨80, _⟩ => ⟨S1x128, .f32⟩
  | .hbm, ⟨81, _⟩ => ⟨S1x64, .f32⟩
  | .hbm, ⟨82, _⟩ => ⟨S50000x64, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S10000x128, .f32⟩
  | .local _ .vmem, ⟨8, _⟩ => ⟨S10000x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S10000x128, .bf16⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S128x64, .bf16⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .bf16 = 32 ∨ (Rect.block (s := S50000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .bf16 = 32 ∨ (Rect.block (s := S50000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v27) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v56) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S50000, .f32⟩
  | .hbm, ⟨31, _⟩ => ⟨S640000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S_, .f32⟩
  | .hbm, ⟨60, _⟩ => ⟨S50000x128, .f32⟩
  | .hbm, ⟨61, _⟩ => ⟨S640000x1, .i32⟩
  | .hbm, ⟨62, _⟩ => ⟨S50000x128, .f32⟩
  | .hbm, ⟨63, _⟩ => ⟨S_, .f32⟩
  | .hbm, ⟨64, _⟩ => ⟨S640000, .f32⟩
  | .hbm, ⟨65, _⟩ => ⟨S_, .f32⟩
  | .hbm, ⟨66, _⟩ => ⟨S50000, .f32⟩
  | .hbm, ⟨67, _⟩ => ⟨S640000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S128x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/- The mathematics both programs compute, stated once over literal shapes and the extended reals.

   A node's features are aggregated over its in-edges (that part is the same host computation in both
   programs and is never opened here); what follows the aggregation is dense:

     conv a x wl b wr (r, j)   = (∑ k, a (r, k) * wl (k, j)) + b (0, j) + ∑ k, x (r, k) * wr (k, j)
     hidden …                  = max (conv …) 0
     logits a h wl b wr wc bc (r, j) = (∑ k, hidden a h wl b wr (r, k) * wc (k, j)) + bc (0, j)

   with `a` the aggregated features, `x` / `h` the node's own features, `wl`, `wr`, `wc` the weight matrices
   already transposed (contraction index first) and `b`, `bc` the biases as one-row matrices. -/
import Idealize.ShloMosaic.PureOps.Ideal
import Idealize.ShloMosaic.Lib.ValueIdx

noncomputable section

namespace Cert.Sage

open Idealize.ShloMosaic Idealize.ShloMosaic.ValueIdx

/-- Node features: one row per node. -/
abbrev Nodes : Shape := ⟨2, ![50000, 128]⟩
/-- A square weight matrix, contraction index first. -/
abbrev Weights : Shape := ⟨2, ![128, 128]⟩
/-- A bias as a one-row matrix. -/
abbrev Bias : Shape := ⟨2, ![1, 128]⟩
/-- The classifier's weights, contraction index first. -/
abbrev ClsWeights : Shape := ⟨2, ![128, 64]⟩
/-- The classifier's bias as a one-row matrix. -/
abbrev ClsBias : Shape := ⟨2, ![1, 64]⟩
/-- The class scores: one row per node. -/
abbrev Scores : Shape := ⟨2, ![50000, 64]⟩

/-- The layer before its activation, at node `r` and output feature `j`. -/
def convAt (a x : Nodes.Idx → EReal) (wl : Weights.Idx → EReal) (b : Bias.Idx → EReal) (wr : Weights.Idx → EReal)
    (r : Fin 50000) (j : Fin 128) : EReal :=
  (∑ k : Fin 128, a (ix2 r k) * wl (ix2 k j)) + b (ix2 (0 : Fin 1) j) + ∑ k : Fin 128, x (ix2 r k) * wr (ix2 k j)

/-- The layer with its activation, at node `r` and output feature `j`. -/
def hiddenAt (a x : Nodes.Idx → EReal) (wl : Weights.Idx → EReal) (b : Bias.Idx → EReal) (wr : Weights.Idx → EReal)
    (r : Fin 50000) (j : Fin 128) : EReal :=
  max (convAt a x wl b wr r j) 0

/-- The activated layer as an array. -/
def hidden (a x : Nodes.Idx → EReal) (wl : Weights.Idx → EReal) (b : Bias.Idx → EReal) (wr : Weights.Idx → EReal) :
    Nodes.Idx → EReal :=
  fun i => hiddenAt a x wl b wr (i 0) (i 1)

/-- The class scores at node `r` and class `j`: the classifier applied to the second activated layer. -/
def logitsAt (a h : Nodes.Idx → EReal) (wl : Weights.Idx → EReal) (b : Bias.Idx → EReal) (wr : Weights.Idx → EReal)
    (wc : ClsWeights.Idx → EReal) (bc : ClsBias.Idx → EReal) (r : Fin 50000) (j : Fin 64) : EReal :=
  (∑ k : Fin 128, hiddenAt a h wl b wr r k * wc (ix2 k j)) + bc (ix2 (0 : Fin 1) j)

/-- The class scores as an array. -/
def logits (a h : Nodes.Idx → EReal) (wl : Weights.Idx → EReal) (b : Bias.Idx → EReal) (wr : Weights.Idx → EReal)
    (wc : ClsWeights.Idx → EReal) (bc : ClsBias.Idx → EReal) : Scores.Idx → EReal :=
  fun i => logitsAt a h wl b wr wc bc (i 0) (i 1)

theorem hidden_apply (a x : Nodes.Idx → EReal) (wl : Weights.Idx → EReal) (b : Bias.Idx → EReal) (wr : Weights.Idx → EReal)
    (r : Fin 50000) (j : Fin 128) : hidden a x wl b wr (ix2 r j) = hiddenAt a x wl b wr r j := rfl

theorem logits_apply (a h : Nodes.Idx → EReal) (wl : Weights.Idx → EReal) (b : Bias.Idx → EReal) (wr : Weights.Idx → EReal)
    (wc : ClsWeights.Idx → EReal) (bc : ClsBias.Idx → EReal) (r : Fin 50000) (j : Fin 64) :
    logits a h wl b wr wc bc (ix2 r j) = logitsAt a h wl b wr wc bc r j := rfl

end Cert.Sage

end
-- ==== Proof.Region0.lean ====
/- Region 0 (the first layer): the array its output window ends holding is the activated layer of the
   mathematics, max (a · wl + b + x · wr) 0, of the arrays the region finds.

   Three steps: the body's value at a row and a feature of one block; what one grid point writes back, as a
   block of the whole-array function; every row lies in exactly the block of the point (row / 10000). -/
import proofs.«108443_j71683004170723_1_alg».proof.Proof.Gen.KernelIdeal.Frame
import proofs.«108443_j71683004170723_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at a row and a feature -/

theorem lhs_row (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhs_contracted (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k

theorem rhs_contracted (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k

theorem rhs_feature (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A product of a block of rows with a weight matrix, accumulated from zero, at row `p` and feature `q`:
    the sum over the 128 input features. -/
theorem matmul_at (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_contracted _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_contracted _ _).trans hk
      | ⟨1, _⟩ => exact rhs_feature _ _)
  rw [el, er]

/-- The bias row, spread over the block's rows, at row `p` and feature `q`. -/
theorem bias_at (b : FVec Ideal S1x128 .f32) (p : Fin 10000) (q : Fin 128) :
    broadcastTo S10000x128 (shapeCast S1x128 b shapeCasts_S1x128_S1x128) broadcasts_S1x128_S10000x128 (ix2 p q)
      = b (ix2 (0 : Fin 1) q) := by
  rw [shapeCast_self]
  refine broadcastTo_apply b _ (ix2 p q) (ix2 (0 : Fin 1) q) ?_
  intro a
  match a with
  | ⟨0, _⟩ => rfl
  | ⟨1, _⟩ => rfl

/-- The body's value on one block, at row `p` of the block and feature `q`: the activated layer's formula
    over the block of aggregated features `a`, the block of the nodes' own features `x`, the two weight
    matrices and the bias row. -/
theorem payload_at (a x : Vec Ideal S10000x128 .bf16) (wl wr : Vec Ideal S128x128 .bf16) (b : Vec Ideal S1x128 .f32)
    (p : Fin 10000) (q : Fin 128) :
    k0_pay1 (F := Ideal) a x wl wr b (ix2 p q)
      = max ((∑ k : Fin 128, a (ix2 p k) * wl (ix2 k q)) + b (ix2 (0 : Fin 1) q)
          + ∑ k : Fin 128, x (ix2 p k) * wr (ix2 k q)) 0 := by
  unfold k0_pay1
  rw [maximumf_apply, addf_apply, addf_apply, matmul_at, matmul_at, bias_at, broadcast_apply]
  simp only [shapeCast_self]
  exact congrArg (max _) Ideal.ofBits_zero_f32

/-- The same against whole arrays: when the blocks hold, at block row `p` and at every input feature, what the
    arrays `A`, `X` hold at node `r`, and the weights and the bias are the arrays' own, the body's value at
    `(p, q)` is the activated layer at node `r` and feature `q`. -/
theorem payload_at_node (A X : Cert.Sage.Nodes.Idx → EReal) (WL : Cert.Sage.Weights.Idx → EReal)
    (B : Cert.Sage.Bias.Idx → EReal) (WR : Cert.Sage.Weights.Idx → EReal)
    (a x : Vec Ideal S10000x128 .bf16) (wl wr : Vec Ideal S128x128 .bf16) (b : Vec Ideal S1x128 .f32)
    (r : Fin 50000) (p : Fin 10000) (q : Fin 128)
    (ha : ∀ k : Fin 128, a (ix2 p k) = A (ix2 r k)) (hx : ∀ k : Fin 128, x (ix2 p k) = X (ix2 r k))
    (hwl : ∀ k : Fin 128, wl (ix2 k q) = WL (ix2 k q)) (hwr : ∀ k : Fin 128, wr (ix2 k q) = WR (ix2 k q))
    (hb : b (ix2 (0 : Fin 1) q) = B (ix2 (0 : Fin 1) q)) :
    k0_pay1 (F := Ideal) a x wl wr b (ix2 p q) = Cert.Sage.hiddenAt A X WL B WR r q := by
  rw [payload_at]
  unfold Cert.Sage.hiddenAt Cert.Sage.convAt
  have el : (∑ k : Fin 128, a (ix2 p k) * wl (ix2 k q)) = ∑ k : Fin 128, A (ix2 r k) * WL (ix2 k q) :=
    Finset.sum_congr rfl fun k _ => by rw [ha k, hwl k]
  have er : (∑ k : Fin 128, x (ix2 p k) * wr (ix2 k q)) = ∑ k : Fin 128, X (ix2 r k) * WR (ix2 k q) :=
    Finset.sum_congr rfl fun k _ => by rw [hx k, hwr k]
  rw [el, er, hb]

/-! ## What one grid point writes back -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point `t`: the row windows (aggregated features, own features, output) at
    block `t` of the rows, every window at block 0 of the features; the weights and the bias whole. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the activated layer of the arrays as the region finds them. -/
theorem flushed_eq (c : Dev nD) (t : Fin cfg0.N) :
    (dat0 (F := Ideal) V c).flushed 5 t = ((cfg0.win 5).blk t).view.read (Elt Ideal)
      (Cert.Sage.hidden (V c main_v27) (V c main_v28) (V c main_v24) (V c main_v29) (V c main_v26)) := by
  show (cfg0.win 5).cut (grid0.coords t) ((dat0 (F := Ideal) V c).after 5 t) = _
  rw [after0_5]
  unfold out0_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e50, e51⟩ := block_indices t
  have ht : t.val < 5 := t.isLt
  funext j
  have hj0 : (j 0).val < 10000 := (j 0).isLt
  have hj1 : (j 1).val < 128 := (j 1).isLt
  -- the row of the block, the node it is, the feature
  obtain ⟨p, hp⟩ : ∃ p : Fin 10000, p.val = (j 0).val := ⟨⟨(j 0).val, hj0⟩, rfl⟩
  obtain ⟨q, hq⟩ : ∃ q : Fin 128, q.val = (j 1).val := ⟨⟨(j 1).val, hj1⟩, rfl⟩
  obtain ⟨r, hr⟩ : ∃ r : Fin 50000, r.val = t.val * 10000 + (j 0).val := ⟨⟨t.val * 10000 + (j 0).val, by omega⟩, rfl⟩
  have ej : (win0 5).xinj (grid0.coords t) j = ix2 p q := by
    funext a; apply Fin.ext
    match a with
    | ⟨0, _⟩ => exact hp.symm
    | ⟨1, _⟩ => exact hq.symm
  have eo : ((cfg0.win 5).blk t).view.emb j = ix2 r q := by
    funext a; apply Fin.ext
    match a with
    | ⟨0, _⟩ => show win0_5.index t (0 : Fin 2) * 10000 + 1 * (j 0).val = r.val; omega
    | ⟨1, _⟩ => show win0_5.index t (1 : Fin 2) * 128 + 1 * (j 1).val = q.val; omega
  show k0_pay1 (F := Ideal) (iblk0 V c 0 t) (iblk0 V c 1 t) (iblk0 V c 2 t) (iblk0 V c 4 t) (iblk0 V c 3 t)
      ((win0 5).xinj (grid0.coords t) j)
    = Cert.Sage.hidden (V c main_v27) (V c main_v28) (V c main_v24) (V c main_v29) (V c main_v26)
      (((cfg0.win 5).blk t).view.emb j)
  rw [ej, eo, Cert.Sage.hidden_apply]
  refine payload_at_node (V c main_v27) (V c main_v28) (V c main_v24) (V c main_v29) (V c main_v26)
    (iblk0 V c 0 t) (iblk0 V c 1 t) (iblk0 V c 2 t) (iblk0 V c 4 t) (iblk0 V c 3 t) r p q ?_ ?_ ?_ ?_ ?_
  · -- the aggregated features: row p of block t is node r
    intro k
    show V c main_v27 (((cfg0.win 0).blk t).view.emb (ix2 p k)) = V c main_v27 (ix2 r k)
    refine congrArg _ (funext fun a => Fin.ext ?_)
    match a with
    | ⟨0, _⟩ => show win0_0.index t (0 : Fin 2) * 10000 + 1 * p.val = r.val; omega
    | ⟨1, _⟩ => show win0_0.index t (1 : Fin 2) * 128 + 1 * k.val = k.val; omega
  · -- the nodes' own features: the same rows
    intro k
    show V c main_v28 (((cfg0.win 1).blk t).view.emb (ix2 p k)) = V c main_v28 (ix2 r k)
    refine congrArg _ (funext fun a => Fin.ext ?_)
    match a with
    | ⟨0, _⟩ => show win0_1.index t (0 : Fin 2) * 10000 + 1 * p.val = r.val; omega
    | ⟨1, _⟩ => show win0_1.index t (1 : Fin 2) * 128 + 1 * k.val = k.val; omega
  · -- the left weights: the whole matrix at every point
    intro k
    show V c main_v24 (((cfg0.win 2).blk t).view.emb (ix2 k q)) = V c main_v24 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · -- the right weights: the whole matrix at every point
    intro k
    show V c main_v26 (((cfg0.win 4).blk t).view.emb (ix2 k q)) = V c main_v26 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · -- the bias: the whole row at every point
    show V c main_v29 (((cfg0.win 3).blk t).view.emb (ix2 (0 : Fin 1) q)) = V c main_v29 (ix2 (0 : Fin 1) q)
    refine congrArg _ (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 128 + 1 * q.val = q.val; omega

/-! ## Every row is in one point's block -/

/-- An index of the output array is in point `t`'s block iff each coordinate is in the block's range on its axis. -/
theorem mem_block (t : Fin cfg0.N) (i : S50000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v30).slice (win0_5.rect t)).set ↔ _
  rw [View.set_slice_whole, Rect.mem_set_unit]
  exact Iff.rfl

/-- Each of the five blocks of rows is some point's. -/
theorem point_of_block : ∀ n : Fin 5, ∃ t : Fin cfg0.N,
    win0_5.index t (0 : Fin 2) = n.val ∧ win0_5.index t (1 : Fin 2) = 0 :=
  (by decide +kernel : ∀ n : Fin 5, ∃ t : Fin grid0.N,
    win0_5.index t (0 : Fin 2) = n.val ∧ win0_5.index t (1 : Fin 2) = 0)

/-- Node `r`'s row is written back by the point whose block is number `r / 10000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, h0, h1⟩ := point_of_block ⟨(i 0).val / 10000, by omega⟩
  have h0' : win0_5.index t (0 : Fin 2) = (i 0).val / 10000 := h0
  refine ⟨t, flush0_5 t, ?_⟩
  rw [mem_block]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-! ## The array after the region -/

/-- THE OUTPUT ARRAY after region 0: the activated layer of the arrays the region finds. -/
theorem array_eq (c : Dev nD) :
    (dat0 (F := Ideal) V c).arrAt 5 cfg0.N
      = Cert.Sage.hidden (V c main_v27) (V c main_v28) (V c main_v24) (V c main_v29) (V c main_v26) :=
  (dat0 (F := Ideal) V c).arrAt_eq_of_cover 5 _ (fun t _ => flushed_eq V c t) covered

end Cert.KernelIdeal.Region0

end
-- ==== Proof.Region1.lean ====
/- Region 1 of the kernel program, read as mathematics: the array of class scores the second pallas_call leaves is the
   spec's `logits` of the arrays the region finds.

   Three steps. (i) What the body computes from its loaded blocks, at row `p` of the block and class `q`: the two
   contractions of the layer against the square weight matrices with the bias row between them, the maximum with zero,
   the contraction against the classifier's weights, and the classifier's bias row. (ii) What grid point `t` writes
   back is block `t` of the scores: the row blocks sit at rows `10000 t … 10000 t + 9999`, the weight and bias blocks
   are the whole arrays. (iii) The five blocks cover the 50000 rows (row `r` lies in block `r / 10000`), so the array
   ends holding the scores everywhere. -/
import proofs.«108443_j71683004170723_1_alg».proof.Proof.Gen.KernelIdeal.Frame
import proofs.«108443_j71683004170723_1_alg».proof.Proof.Spec
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## A matrix product at an index

The contraction of a block of rows with a square weight matrix, and with the classifier's weight matrix, read at row
`p` and column `q`, is the sum over the one contracted axis. -/

theorem lhs_feat_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_feat_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_feat_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_feat_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Rows times a square weight matrix, at row `p` and output feature `q`. -/
theorem feat_matmul_apply (x : FVec Ideal S10000x128 .bf16) (w : FVec Ideal S128x128 .bf16) (p : Fin 10000) (q : Fin 128) :
    matmul dot_S10000x128_S128x128_S10000x128_1_0_0_1_n_n none x w (constant S10000x128 .f32 0x00000000#32) (ix2 p q)
      = ∑ k : Fin 128, x (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_feat_0 _ _).trans hk
    | ⟨1, _⟩ => exact rhs_feat_1 _ _)
  rw [el, er]

theorem lhs_cls_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_cls_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_cls_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_cls_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Rows times the classifier's weight matrix, at row `p` and class `q`. -/
theorem cls_matmul_apply (x : FVec Ideal S10000x128 .bf16) (w : FVec Ideal S128x64 .bf16) (p : Fin 10000) (q : Fin 64) :
    matmul dot_S10000x128_S128x64_S10000x64_1_0_0_1_n_n none x w (constant S10000x64 .f32 0x00000000#32) (ix2 p q)
      = ∑ k : Fin 128, x (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_cls_0 _ _
    | ⟨1, _⟩ => exact (lhs_cls_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_cls_0 _ _).trans hk
    | ⟨1, _⟩ => exact rhs_cls_1 _ _)
  rw [el, er]

/-! ## The body's result at an index -/

/-- The layer's bias row spread over a block's rows, at row `p` and feature `q`. -/
theorem bias_apply (b : FVec Ideal S1x128 .f32) (h₂ : S1x128.Broadcasts S10000x128) (p : Fin 10000) (q : Fin 128) :
    broadcastTo S10000x128 b h₂ (ix2 p q) = b (ix2 (0 : Fin 1) q) :=
  broadcastTo_apply b h₂ (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- The classifier's bias row spread over a block's rows, at row `p` and class `q`. -/
theorem cls_bias_apply (b : FVec Ideal S1x64 .f32) (h₂ : S1x64.Broadcasts S10000x64) (p : Fin 10000) (q : Fin 64) :
    broadcastTo S10000x64 b h₂ (ix2 p q) = b (ix2 (0 : Fin 1) q) :=
  broadcastTo_apply b h₂ (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)

/-- What the body computes from its loaded blocks, at row `p` of the block and class `q`: the activated layer of the
    block's rows contracted with the classifier's weights, plus the classifier's bias. -/
theorem scores_block_apply (a h : FVec Ideal S10000x128 .bf16) (wl wr : FVec Ideal S128x128 .bf16) (b : FVec Ideal S1x128 .f32)
    (wc : FVec Ideal S128x64 .bf16) (bc : FVec Ideal S1x64 .f32) (p : Fin 10000) (q : Fin 64) :
    k1_pay1 (F := Ideal) a h wl wr b wc bc (ix2 p q)
      = (∑ k : Fin 128, max ((∑ l : Fin 128, a (ix2 p l) * wl (ix2 l k)) + b (ix2 (0 : Fin 1) k)
            + ∑ l : Fin 128, h (ix2 p l) * wr (ix2 l k)) 0 * wc (ix2 k q)) + bc (ix2 (0 : Fin 1) q) := by
  unfold k1_pay1
  simp only [shapeCast_self]
  rw [addf_apply, cls_matmul_apply, cls_bias_apply]
  refine congrArg (· + bc (ix2 (0 : Fin 1) q)) (Finset.sum_congr rfl fun k _ => ?_)
  rw [truncf_apply, maximumf_apply, addf_apply, addf_apply, feat_matmul_apply, feat_matmul_apply, bias_apply, broadcast_apply]
  show max _ (Ideal.ofBits .f32 0x00000000#32) * _ = _
  rw [Ideal.ofBits_zero_f32]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row windows move with the output's, one block of rows per point, and the weight
    and bias windows stay on the whole array. -/
theorem index_facts : ∀ t : Fin cfg1.N, win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ t.val < 5 :=
  (by decide +kernel : ∀ t : Fin grid1.N, _)

/-- Row `p` of the output's block at point `t` is row `10000 t + p` of the scores. -/
theorem scores_emb (t : Fin cfg1.N) (p : Fin 10000) (q : Fin 64) (r : Fin 50000) (hr : r.val = 10000 * t.val + p.val) :
    ((cfg1.win 7).blk t).view.emb (ix2 p q) = (ix2 r q : S50000x64.Idx) := by
  obtain ⟨e0, e1, -⟩ := index_facts t
  funext a; apply Fin.ext
  match a with
  | ⟨0, _⟩ => show win1_7.index t (0 : Fin 2) * 10000 + 1 * p.val = r.val; omega
  | ⟨1, _⟩ => show win1_7.index t (1 : Fin 2) * 64 + 1 * q.val = q.val; omega

/-- Row `p` of the aggregated features' block at point `t` is row `10000 t + p` of the array. -/
theorem agg_read (c : Dev nD) (t : Fin cfg1.N) (p : Fin 10000) (l : Fin 128) (r : Fin 50000) (hr : r.val = 10000 * t.val + p.val) :
    iblk1 V c 0 t (ix2 p l) = V c main_v56 (ix2 r l) := by
  obtain ⟨-, -, e0, e1, -⟩ := index_facts t
  show V c main_v56 (((cfg1.win 0).blk t).view.emb (ix2 p l)) = V c main_v56 (ix2 r l)
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * l.val = l.val; omega

/-- Row `p` of the nodes' own features' block at point `t` is row `10000 t + p` of the array. -/
theorem own_read (c : Dev nD) (t : Fin cfg1.N) (p : Fin 10000) (l : Fin 128) (r : Fin 50000) (hr : r.val = 10000 * t.val + p.val) :
    iblk1 V c 1 t (ix2 p l) = V c main_v57 (ix2 r l) := by
  obtain ⟨-, -, -, -, e0, e1, -⟩ := index_facts t
  show V c main_v57 (((cfg1.win 1).blk t).view.emb (ix2 p l)) = V c main_v57 (ix2 r l)
  refine congrArg _ (funext fun a => Fin.ext ?_)
  match a with
  | ⟨0, _⟩ => show win1_1.index t (0 : Fin 2) * 10000 + 1 * p.val = r.val; omega
  | ⟨1, _⟩ => show win1_1.index t (1 : Fin 2) * 128 + 1 * l.val = l.val; omega

/-- The left weights' block is the whole matrix at every point. -/
theorem wl_read (c : Dev nD) (t : Fin cfg1.N) (l k : Fin 128) : iblk1 V c 2 t (ix2 l k) = V c main_v51 (ix2 l k) := by
  obtain ⟨-, -, -, -, -, -, e0, e1, -⟩ := index_facts t
  show V c main_v51 (((cfg1.win 2).blk t).view.emb (ix2 l k)) = V c main_v51 (ix2 l k)
  refine congrArg _ (funext fun a => Fin.ext ?_)
  match a with
  | ⟨0, _⟩ => show win1_2.index t (0 : Fin 2) * 128 + 1 * l.val = l.val; omega
  | ⟨1, _⟩ => show win1_2.index t (1 : Fin 2) * 128 + 1 * k.val = k.val; omega

/-- The layer's bias row's block is the whole row at every point. -/
theorem bias_read (c : Dev nD) (t : Fin cfg1.N) (z : Fin 1) (k : Fin 128) : iblk1 V c 3 t (ix2 z k) = V c main_v58 (ix2 z k) := by
  obtain ⟨-, -, -, -, -, -, -, -, e0, e1, -⟩ := index_facts t
  show V c main_v58 (((cfg1.win 3).blk t).view.emb (ix2 z k)) = V c main_v58 (ix2 z k)
  refine congrArg _ (funext fun a => Fin.ext ?_)
  match a with
  | ⟨0, _⟩ => show win1_3.index t (0 : Fin 2) * 1 + 1 * z.val = z.val; omega
  | ⟨1, _⟩ => show win1_3.index t (1 : Fin 2) * 128 + 1 * k.val = k.val; omega

/-- The right weights' block is the whole matrix at every point. -/
theorem wr_read (c : Dev nD) (t : Fin cfg1.N) (l k : Fin 128) : iblk1 V c 4 t (ix2 l k) = V c main_v53 (ix2 l k) := by
  obtain ⟨-, -, -, -, -, -, -, -, -, -, e0, e1, -⟩ := index_facts t
  show V c main_v53 (((cfg1.win 4).blk t).view.emb (ix2 l k)) = V c main_v53 (ix2 l k)
  refine congrArg _ (funext fun a => Fin.ext ?_)
  match a with
  | ⟨0, _⟩ => show win1_4.index t (0 : Fin 2) * 128 + 1 * l.val = l.val; omega
  | ⟨1, _⟩ => show win1_4.index t (1 : Fin 2) * 128 + 1 * k.val = k.val; omega

/-- The classifier's weights' block is the whole matrix at every point. -/
theorem wc_read (c : Dev nD) (t : Fin cfg1.N) (k : Fin 128) (q : Fin 64) : iblk1 V c 5 t (ix2 k q) = V c main_v55 (ix2 k q) := by
  obtain ⟨-, -, -, -, -, -, -, -, -, -, -, -, e0, e1, -⟩ := index_facts t
  show V c main_v55 (((cfg1.win 5).blk t).view.emb (ix2 k q)) = V c main_v55 (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 64 + 1 * q.val = q.val; omega

/-- The classifier's bias row's block is the whole row at every point. -/
theorem bc_read (c : Dev nD) (t : Fin cfg1.N) (z : Fin 1) (q : Fin 64) : iblk1 V c 6 t (ix2 z q) = V c main_v59 (ix2 z q) := by
  obtain ⟨-, -, -, -, -, -, -, -, -, -, -, -, -, -, e0, e1, -⟩ := index_facts t
  show V c main_v59 (((cfg1.win 6).blk t).view.emb (ix2 z q)) = V c main_v59 (ix2 z q)
  refine congrArg _ (funext fun a => Fin.ext ?_)
  match a with
  | ⟨0, _⟩ => show win1_6.index t (0 : Fin 2) * 1 + 1 * z.val = z.val; omega
  | ⟨1, _⟩ => show win1_6.index t (1 : Fin 2) * 64 + 1 * q.val = q.val; omega

/-- What point `t` writes back is its block of the scores. -/
theorem flushed_eq (c : Dev nD) (t : Fin cfg1.N) :
    (dat1 (F := Ideal) V c).flushed 7 t = ((cfg1.win 7).blk t).view.read (Elt Ideal)
      (Cert.Sage.logits (V c main_v56) (V c main_v57) (V c main_v51) (V c main_v58) (V c main_v53) (V c main_v55) (V c main_v59)) := by
  show (cfg1.win 7).cut (grid1.coords t) ((dat1 (F := Ideal) V c).after 7 t) = _
  rw [after1_7]
  unfold out1_7
  rw [View.canon_unit_zero origin]
  simp only [View.ld_unit_zero (S := S10000x128) origin, View.ld_unit_zero (S := S128x128) origin, View.ld_unit_zero (S := S1x128) origin,
    View.ld_unit_zero (S := S128x64) origin, View.ld_unit_zero (S := S1x64) origin]
  funext j
  obtain ⟨p, q, rfl⟩ : ∃ (p : Fin 10000) (q : Fin 64), j = ix2 p q := ⟨j 0, j 1, eq_ix2 j⟩
  obtain ⟨r, hr⟩ : ∃ r : Fin 50000, r.val = 10000 * t.val + p.val :=
    ⟨⟨10000 * t.val + p.val, by have h5 := (index_facts t).2.2.2.2.2.2.2.2.2.2.2.2.2.2.2.2; omega⟩, rfl⟩
  show k1_pay1 (F := Ideal) (iblk1 V c 0 t) (iblk1 V c 1 t) (iblk1 V c 2 t) (iblk1 V c 4 t) (iblk1 V c 3 t) (iblk1 V c 5 t) (iblk1 V c 6 t) (ix2 p q)
    = Cert.Sage.logits (V c main_v56) (V c main_v57) (V c main_v51) (V c main_v58) (V c main_v53) (V c main_v55) (V c main_v59)
        (((cfg1.win 7).blk t).view.emb (ix2 p q))
  refine (scores_block_apply _ _ _ _ _ _ _ p q).trans ?_
  rw [scores_emb t p q r hr, Cert.Sage.logits_apply]
  unfold Cert.Sage.logitsAt Cert.Sage.hiddenAt Cert.Sage.convAt
  simp only [agg_read V c t _ _ r hr, own_read V c t _ _ r hr, wl_read V c t, bias_read V c t, wr_read V c t, wc_read V c t, bc_read V c t]

/-- An index of the scores is in point `t`'s block iff each coordinate is in the block's range on its axis. -/
theorem mem_blk (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v60).slice (win1_7.rect t)).set ↔ _
  rw [View.set_slice_whole, Rect.mem_set_unit]
  exact Iff.rfl

/-- Every index of the scores is in some point's block: row `r` is in the block of point `r / 10000`. -/
theorem covered (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by show (i 0).val / 10000 < grid1.N; rw [N_1]; omega⟩, rfl⟩
  obtain ⟨e0, e1, -⟩ := index_facts t
  refine ⟨t, flush1_7 t, ?_⟩
  rw [mem_blk]
  intro a
  match a with
  | ⟨0, _⟩ =>
    show win1_7.index t (0 : Fin 2) * 10000 ≤ (i 0).val ∧ (i 0).val < win1_7.index t (0 : Fin 2) * 10000 + 10000
    omega
  | ⟨1, _⟩ =>
    show win1_7.index t (1 : Fin 2) * 64 ≤ (i 1).val ∧ (i 1).val < win1_7.index t (1 : Fin 2) * 64 + 64
    omega

/-- The scores' array after the region: the class scores of the spec, of the arrays the region finds. -/
theorem array_eq (c : Dev nD) :
    (dat1 (F := Ideal) V c).arrAt 7 cfg1.N
      = Cert.Sage.logits (V c main_v56) (V c main_v57) (V c main_v51) (V c main_v58) (V c main_v53) (V c main_v55) (V c main_v59) :=
  (dat1 (F := Ideal) V c).arrAt_eq_of_cover 7 _ (fun t _ => flushed_eq V c t) covered

end Cert.KernelIdeal.Region1

end
-- ==== Proof.HostRead.lean ====
/- What the two regions find in their windows' arrays, as terms of the launch memory.

   Before the first region the host program aggregates the node features over the edges, transposes the two weight
   matrices and lays the bias out as a row; before the second it does the same with the first region's output (the
   hidden features) and the second layer's weights, and prepares the classifier's weights and bias. Each array is
   stated over the same stage functions that describe the reference program (the two host computations are the
   same operations, so these equations hold by unfolding); the aggregation is carried as one function of the
   features and the edge list and is never opened. -/
import proofs.«108443_j71683004170723_1_alg».proof.Proof.Gen.KernelIdeal.Frame
import proofs.«108443_j71683004170723_1_alg».proof.Proof.Gen.ReferenceIdeal.Read
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v22 val_main_v23 val_main_v28 val_main_v31 val_main_v37 val_main_v39 val_main_v40 val_main_v49 val_main_v50 val_main_v51 val_main_v56 val_main_v60)

variable {F : FTy → Type} [FloatOps F]
variable [Cert.ReferenceIdeal.Facts]

/-- The mean of the features `h` over each node's in-edges, as the second layer computes it: gather the source
    rows, add them up per destination, divide by the in-degree (at least one). -/
def aggregate (h : (⟨Cert.ReferenceIdeal.S50000x128, .f32⟩ : BufTy).Contents (Elt F))
    (e : (⟨Cert.ReferenceIdeal.S2x640000, .i32⟩ : BufTy).Contents (Elt F)) :
    (⟨Cert.ReferenceIdeal.S50000x128, .f32⟩ : BufTy).Contents (Elt F) :=
  Host.divf (Host.scatterAdd Cert.ReferenceIdeal.scatter_S50000x128_S640000x1_S640000x128_1_0_0_1 (val_main_v39 (F := F)) (val_main_v40 (F := F) e)
    (Host.gather Cert.ReferenceIdeal.gather_S50000x128_S640000x1_S640000x128_1_0_n_n_0_1_1128 h (val_main_v37 (F := F) e))) (val_main_v49 (F := F) e)

/-- The reference's second aggregation is `aggregate` of its first layer's output. -/
theorem val_main_v50_eq (x0 x1 x2 x3 x4) :
    val_main_v50 (F := F) x0 x1 x2 x3 x4 = aggregate (val_main_v31 (F := F) x0 x1 x2 x3 x4) x1 := rfl

variable (m : (ℓ : Loc nD τ sig) → Buf (Elt F) ℓ) (ρ : Dev nD → PrngReg)

/-! ## Before the first region -/

theorem entry0_aggregated (c : Dev nD) :
    V1 m ρ c main_v27 = truncf .bf16 (val_main_v22 (F := F) (m ((c : Thread nD τ).loc main_arg0)) (m ((c : Thread nD τ).loc main_arg1))) bitsLt_bf16_f32 := by
  show StableHlo.after hostOps0 (W0 m ρ c) (Proc.devRef .tc main_v27) = _
  after_results_simp
  rfl

theorem entry0_features (c : Dev nD) :
    V1 m ρ c main_v28 = truncf .bf16 (m ((c : Thread nD τ).loc main_arg0)) bitsLt_bf16_f32 := by
  show StableHlo.after hostOps0 (W0 m ρ c) (Proc.devRef .tc main_v28) = _
  after_results_simp

theorem entry0_left (c : Dev nD) :
    V1 m ρ c main_v24 = truncf .bf16 (val_main_v23 (F := F) (m ((c : Thread nD τ).loc main_arg2))) bitsLt_bf16_f32 := by
  show StableHlo.after hostOps0 (W0 m ρ c) (Proc.devRef .tc main_v24) = _
  after_results_simp
  rfl

theorem entry0_bias (c : Dev nD) :
    V1 m ρ c main_v29 = shapeCast S1x128 (m ((c : Thread nD τ).loc main_arg3)) shapeCasts_S128_S1x128 := by
  show StableHlo.after hostOps0 (W0 m ρ c) (Proc.devRef .tc main_v29) = _
  after_results_simp
  rfl

theorem entry0_right (c : Dev nD) :
    V1 m ρ c main_v26 = truncf .bf16 (val_main_v28 (F := F) (m ((c : Thread nD τ).loc main_arg4))) bitsLt_bf16_f32 := by
  show StableHlo.after hostOps0 (W0 m ρ c) (Proc.devRef .tc main_v26) = _
  after_results_simp
  rfl

/-! ## Between the regions: what the first region left untouched -/

theorem mid_src (c : Dev nD) : W2 m ρ c (Proc.devRef .tc main_v1) = val_main_v1 (F := F) (m ((c : Thread nD τ).loc main_arg1)) := by
  rw [W2_of_ne m ρ c main_v1 (by decide)]
  show StableHlo.after hostOps0 (W0 m ρ c) (Proc.devRef .tc main_v1) = _
  after_results_simp
  rfl

theorem mid_dst (c : Dev nD) : W2 m ρ c (Proc.devRef .tc main_v3) = val_main_v3 (F := F) (m ((c : Thread nD τ).loc main_arg1)) := by
  rw [W2_of_ne m ρ c main_v3 (by decide)]
  show StableHlo.after hostOps0 (W0 m ρ c) (Proc.devRef .tc main_v3) = _
  after_results_simp
  rfl

theorem mid_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp

theorem mid_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp

theorem mid_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp

theorem mid_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp

theorem mid_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp

/-! ## Before the second region -/

theorem entry1_aggregated (c : Dev nD) :
    V3 m ρ c main_v56 = truncf .bf16 (aggregate (F := F) (W2 m ρ c (Proc.devRef .tc main_v30)) (m ((c : Thread nD τ).loc main_arg1))) bitsLt_bf16_f32 := by
  show StableHlo.after hostOps1 (W2 m ρ c) (Proc.devRef .tc main_v56) = _
  after_results_simp
  rw [mid_src m ρ c, mid_dst m ρ c]
  rfl

theorem entry1_hidden (c : Dev nD) :
    V3 m ρ c main_v57 = truncf .bf16 (W2 m ρ c (Proc.devRef .tc main_v30)) bitsLt_bf16_f32 := by
  show StableHlo.after hostOps1 (W2 m ρ c) (Proc.devRef .tc main_v57) = _
  after_results_simp

theorem entry1_left (c : Dev nD) :
    V3 m ρ c main_v51 = truncf .bf16 (val_main_v51 (F := F) (m ((c : Thread nD τ).loc main_arg5))) bitsLt_bf16_f32 := by
  show StableHlo.after hostOps1 (W2 m ρ c) (Proc.devRef .tc main_v51) = _
  after_results_simp
  rw [mid_arg5 m ρ c]
  rfl

theorem entry1_bias (c : Dev nD) :
    V3 m ρ c main_v58 = shapeCast S1x128 (m ((c : Thread nD τ).loc main_arg6)) shapeCasts_S128_S1x128 := by
  show StableHlo.after hostOps1 (W2 m ρ c) (Proc.devRef .tc main_v58) = _
  after_results_simp
  rw [mid_arg6 m ρ c]
  rfl

theorem entry1_right (c : Dev nD) :
    V3 m ρ c main_v53 = truncf .bf16 (val_main_v56 (F := F) (m ((c : Thread nD τ).loc main_arg7))) bitsLt_bf16_f32 := by
  show StableHlo.after hostOps1 (W2 m ρ c) (Proc.devRef .tc main_v53) = _
  after_results_simp
  rw [mid_arg7 m ρ c]
  rfl

theorem entry1_cls (c : Dev nD) :
    V3 m ρ c main_v55 = truncf .bf16 (val_main_v60 (F := F) (m ((c : Thread nD τ).loc main_arg8))) bitsLt_bf16_f32 := by
  show StableHlo.after hostOps1 (W2 m ρ c) (Proc.devRef .tc main_v55) = _
  after_results_simp
  rw [mid_arg8 m ρ c]
  rfl

theorem entry1_clsBias (c : Dev nD) :
    V3 m ρ c main_v59 = shapeCast S1x64 (m ((c : Thread nD τ).loc main_arg9)) shapeCasts_S64_S1x64 := by
  show StableHlo.after hostOps1 (W2 m ρ c) (Proc.devRef .tc main_v59) = _
  after_results_simp
  rw [mid_arg9 m ρ c]
  rfl

end Cert.KernelIdeal.HostRead

end
-- ==== Proof.RefLayers.lean ====
/- The reference program's two layers and its classifier are the specification's `hidden` and `logits`.

   Each stage of the reference is read at an index (r, j): a matrix product as the sum over the contraction index,
   the bias broadcast as its row's entry, the activation as the maximum with zero. The aggregated features enter as
   one array and are not opened. -/
import proofs.«108443_j71683004170723_1_alg».proof.Proof.Gen.ReferenceIdeal.Read
import proofs.«108443_j71683004170723_1_alg».proof.Proof.Spec

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx

/-- The first layer with its activation: `hidden` of the aggregated features, the features, the two transposed
    weight matrices and the bias row. -/
theorem first_layer (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = Cert.Sage.hidden (val_main_v22 (F := Ideal) x0 x1) x0 (val_main_v23 (F := Ideal) x2) (val_main_v25 (F := Ideal) x3) (val_main_v28 (F := Ideal) x4) := by
  funext i
  obtain ⟨r, j, rfl⟩ : ∃ (r : Fin 50000) (j : Fin 128), i = ix2 r j := ⟨i 0, i 1, eq_ix2 i⟩
  rw [Cert.Sage.hidden_apply, val_main_v31_apply, val_main_v30_apply, val_main_v27_apply, val_main_v24_apply, val_main_v26_apply,
    val_main_v29_apply, val_main_call0_v0_apply, val_main_call0_cst_apply]
  have el : ∀ k : Fin 128, lidx_main_v24 (ix2 r j) k = ix2 r k := fun k => funext fun a => match a with | ⟨0, _⟩ => rfl | ⟨1, _⟩ => rfl
  have er : ∀ k : Fin 128, ridx_main_v24 (ix2 r j) k = ix2 k j := fun k => funext fun a => match a with | ⟨0, _⟩ => rfl | ⟨1, _⟩ => rfl
  have el' : ∀ k : Fin 128, lidx_main_v29 (ix2 r j) k = ix2 r k := fun k => funext fun a => match a with | ⟨0, _⟩ => rfl | ⟨1, _⟩ => rfl
  have er' : ∀ k : Fin 128, ridx_main_v29 (ix2 r j) k = ix2 k j := fun k => funext fun a => match a with | ⟨0, _⟩ => rfl | ⟨1, _⟩ => rfl
  have eb : idx_main_v26 (ix2 r j) = ix2 (0 : Fin 1) j := funext fun a => match a with | ⟨0, _⟩ => rfl | ⟨1, _⟩ => rfl
  simp only [el, er, el', er', eb]
  unfold Cert.Sage.hiddenAt Cert.Sage.convAt
  exact congrArg (max _) Ideal.ofBits_zero_f32

/-- The second layer with its activation at node `r` and feature `k`: the same formula over the second aggregation
    and the first layer's output. -/
theorem second_hidden (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (r : Fin 50000) (k : Fin 128) :
    val_main_v59 (F := Ideal) x0 x1 x2 x3 x4 x5 x6 x7 (ix2 r k)
      = Cert.Sage.hiddenAt (val_main_v50 (F := Ideal) x0 x1 x2 x3 x4) (val_main_v31 (F := Ideal) x0 x1 x2 x3 x4)
          (val_main_v51 (F := Ideal) x5) (val_main_v53 (F := Ideal) x6) (val_main_v56 (F := Ideal) x7) r k := by
  rw [val_main_v59_apply, val_main_v58_apply, val_main_v55_apply, val_main_v52_apply, val_main_v54_apply, val_main_v57_apply,
    val_main_call1_v0_apply, val_main_call1_cst_apply]
  have fl : ∀ q : Fin 128, lidx_main_v52 (ix2 r k) q = ix2 r q := fun q => funext fun a => match a with | ⟨0, _⟩ => rfl | ⟨1, _⟩ => rfl
  have fr : ∀ q : Fin 128, ridx_main_v52 (ix2 r k) q = ix2 q k := fun q => funext fun a => match a with | ⟨0, _⟩ => rfl | ⟨1, _⟩ => rfl
  have fl' : ∀ q : Fin 128, lidx_main_v57 (ix2 r k) q = ix2 r q := fun q => funext fun a => match a with | ⟨0, _⟩ => rfl | ⟨1, _⟩ => rfl
  have fr' : ∀ q : Fin 128, ridx_main_v57 (ix2 r k) q = ix2 q k := fun q => funext fun a => match a with | ⟨0, _⟩ => rfl | ⟨1, _⟩ => rfl
  have fb : idx_main_v54 (ix2 r k) = ix2 (0 : Fin 1) k := funext fun a => match a with | ⟨0, _⟩ => rfl | ⟨1, _⟩ => rfl
  simp only [fl, fr, fl', fr', fb]
  unfold Cert.Sage.hiddenAt Cert.Sage.convAt
  exact congrArg (max _) Ideal.ofBits_zero_f32

/-- The second layer and the classifier: `logits` of the second aggregation, the first layer's output, the second
    layer's weights and bias, the classifier's weights and bias. -/
theorem second_layer (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) :
    val_main_v64 (F := Ideal) x0 x1 x2 x3 x4 x5 x6 x7 x8 x9
      = Cert.Sage.logits (val_main_v50 (F := Ideal) x0 x1 x2 x3 x4) (val_main_v31 (F := Ideal) x0 x1 x2 x3 x4)
          (val_main_v51 (F := Ideal) x5) (val_main_v53 (F := Ideal) x6) (val_main_v56 (F := Ideal) x7)
          (val_main_v60 (F := Ideal) x8) (val_main_v62 (F := Ideal) x9) := by
  funext i
  obtain ⟨r, j, rfl⟩ : ∃ (r : Fin 50000) (j : Fin 64), i = ix2 r j := ⟨i 0, i 1, eq_ix2 i⟩
  rw [Cert.Sage.logits_apply, val_main_v64_apply, val_main_v61_apply, val_main_v63_apply]
  have el : ∀ k : Fin 128, lidx_main_v61 (ix2 r j) k = ix2 r k := fun k => funext fun a => match a with | ⟨0, _⟩ => rfl | ⟨1, _⟩ => rfl
  have er : ∀ k : Fin 128, ridx_main_v61 (ix2 r j) k = ix2 k j := fun k => funext fun a => match a with | ⟨0, _⟩ => rfl | ⟨1, _⟩ => rfl
  have eb : idx_main_v63 (ix2 r j) = ix2 (0 : Fin 1) j := funext fun a => match a with | ⟨0, _⟩ => rfl | ⟨1, _⟩ => rfl
  simp only [el, er, eb, second_hidden]
  rfl

end Cert.ReferenceIdeal.Layers

end
-- ==== Proof.Result.lean ====
/- The returned array of the kernel program is the reference's last stage of the launch memory.

   The second region's output array is the specification's class scores of the arrays that region finds; those are
   the second aggregation of the first region's output, that output itself, and the transposed weights and bias rows;
   the first region's output is the specification's first layer of the first aggregation, the features, and its own
   weights and bias. On the reference's side the same two formulas describe its stages. Over the extended reals the
   narrowing of the operands is the identity, and a bias laid out as a row by a reshape and by a broadcast is the
   same row. -/
import proofs.«108443_j71683004170723_1_alg».proof.Proof.Region0
import proofs.«108443_j71683004170723_1_alg».proof.Proof.Region1
import proofs.«108443_j71683004170723_1_alg».proof.Proof.FrameResult
import proofs.«108443_j71683004170723_1_alg».proof.Proof.HostRead
import proofs.«108443_j71683004170723_1_alg».proof.Proof.RefLayers
import Idealize.ShloMosaic.Lib.ValueLayout

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Cert.ReferenceIdeal.Read (val_main_v22 val_main_v23 val_main_v25 val_main_v28 val_main_v31 val_main_v50 val_main_v51 val_main_v53 val_main_v56 val_main_v60 val_main_v62 val_main_v64)

variable [Cert.ReferenceIdeal.Facts]

/-- Over the extended reals a change of float format is the identity. -/
theorem narrow_id {s : Shape} {φ ψ : FTy} (y : FVec Ideal s φ) (h : ψ.bits < φ.bits) : truncf ψ y h = y := rfl

/-- A bias laid out as a row by a reshape is the bias laid out as a row by a broadcast: entry (0, j) is entry j. -/
theorem bias_row (b : (⟨Cert.ReferenceIdeal.S128, .f32⟩ : BufTy).Contents (Elt Ideal)) :
    shapeCast S1x128 b shapeCasts_S128_S1x128 = val_main_v25 (F := Ideal) b := by
  funext i
  obtain ⟨u, j, rfl⟩ : ∃ (u : Fin 1) (j : Fin 128), i = ix2 u j := ⟨i 0, i 1, eq_ix2 i⟩
  rw [Cert.ReferenceIdeal.Read.val_main_v25_apply]
  exact (shapeCast_a_1a_apply b shapeCasts_S128_S1x128 u j).trans (congrArg b (funext fun a => match a with | ⟨0, _⟩ => rfl))

/-- The same for the classifier's bias. -/
theorem cls_bias_row (b : (⟨Cert.ReferenceIdeal.S64, .f32⟩ : BufTy).Contents (Elt Ideal)) :
    shapeCast S1x64 b shapeCasts_S64_S1x64 = val_main_v62 (F := Ideal) b := by
  funext i
  obtain ⟨u, j, rfl⟩ : ∃ (u : Fin 1) (j : Fin 64), i = ix2 u j := ⟨i 0, i 1, eq_ix2 i⟩
  rw [Cert.ReferenceIdeal.Read.val_main_v62_apply]
  exact (shapeCast_a_1a_apply b shapeCasts_S64_S1x64 u j).trans (congrArg b (funext fun a => match a with | ⟨0, _⟩ => rfl))

/-- The second layer's bias, read by the reference through the same broadcast. -/
theorem bias_row2 (b : (⟨Cert.ReferenceIdeal.S128, .f32⟩ : BufTy).Contents (Elt Ideal)) :
    shapeCast S1x128 b shapeCasts_S128_S1x128 = val_main_v53 (F := Ideal) b := by
  funext i
  obtain ⟨u, j, rfl⟩ : ∃ (u : Fin 1) (j : Fin 128), i = ix2 u j := ⟨i 0, i 1, eq_ix2 i⟩
  rw [Cert.ReferenceIdeal.Read.val_main_v53_apply]
  exact (shapeCast_a_1a_apply b shapeCasts_S128_S1x128 u j).trans (congrArg b (funext fun a => match a with | ⟨0, _⟩ => rfl))

variable (m : (ℓ : Loc nD τ sig) → Buf (Elt Ideal) ℓ) (ρ : Dev nD → PrngReg)

/-- The hidden features the first region leaves: the specification's first layer over the launch memory. -/
theorem hidden_eq (c : Dev nD) :
    W2 m ρ c (Proc.devRef .tc main_v30)
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.ReferenceIdeal.Layers.first_layer]
  refine ((W2_arr m ρ c 5).trans (Cert.KernelIdeal.Region0.array_eq (V1 m ρ) c)).trans ?_
  rw [HostRead.entry0_aggregated, HostRead.entry0_features, HostRead.entry0_left, HostRead.entry0_bias, HostRead.entry0_right]
  simp only [narrow_id]
  exact congrArg (fun b => Cert.Sage.hidden _ _ _ b _) (bias_row (m ((c : Thread nD τ).loc main_arg3)))

/-- The returned array: the specification's class scores over the launch memory, which is the reference's result. -/
theorem result_eq (c : Dev nD) :
    W4 m ρ c (Proc.devRef .tc main_v60)
      = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.ReferenceIdeal.Layers.second_layer, HostRead.val_main_v50_eq]
  refine ((Cert.KernelIdeal.GenResult.W4_result m ρ c).trans (Cert.KernelIdeal.Region1.array_eq (V3 m ρ) c)).trans ?_
  rw [HostRead.entry1_aggregated, HostRead.entry1_hidden, HostRead.entry1_left, HostRead.entry1_bias, HostRead.entry1_right,
    HostRead.entry1_cls, HostRead.entry1_clsBias, hidden_eq m ρ c]
  simp only [narrow_id]
  exact (congrArg (fun b => Cert.Sage.logits _ _ _ b _ _ _) (bias_row2 (m ((c : Thread nD τ).loc main_arg6)))).trans
    (congrArg (fun b => Cert.Sage.logits _ _ _ _ _ _ b) (cls_bias_row (m ((c : Thread nD τ).loc main_arg9))))

end Cert.KernelIdeal.Result

end
-- ==== Proof.lean ====
/- The graph network of two aggregation layers and a classifier computes the same class scores as its reference.

   Both programs average each node's neighbour features over its in-edges, apply
   `max (mean · Wlᵀ + b + x · Wrᵀ) 0`, average the result again, apply the second layer the same way and finish with
   `h · Wcᵀ + bc`. The kernel program does the dense part in two tiled regions of five row blocks each (the second
   fuses the second layer with the classifier) and rounds its operands to a narrower float format first, which is the
   identity over the extended reals; the reference does it with whole-array matrix products. The two neighbour
   averages are the same host computation in both programs and are carried as one function, never opened. What is
   proved: each region's output array is the specification's `hidden` / `logits` of the arrays the region finds
   (Region0, Region1), those arrays are the reference's own stages of the launch memory (HostRead), the reference's
   stages are the same `hidden` / `logits` (RefLayers), and so the returned arrays agree entry by entry (Result).
   No algebraic law is needed beyond reading each matrix product as the sum over its contraction index, so the
   finiteness of the inputs is never used. The three frames are the generated ones; the idealization rewrote nothing. -/
import proofs.«108443_j71683004170723_1_alg».proof.Defs
import proofs.«108443_j71683004170723_1_alg».proof.Proof.Gen.Kernel
import proofs.«108443_j71683004170723_1_alg».proof.Proof.Gen.Kernel.Skeleton
import proofs.«108443_j71683004170723_1_alg».proof.Proof.Gen.Kernel.Launch
import proofs.«108443_j71683004170723_1_alg».proof.Proof.Gen.Kernel.Points
import proofs.«108443_j71683004170723_1_alg».proof.Proof.Gen.Kernel.Frame
import proofs.«108443_j71683004170723_1_alg».proof.Proof.Gen.KernelIdeal
import proofs.«108443_j71683004170723_1_alg».proof.Proof.Gen.KernelIdeal.Skeleton
import proofs.«108443_j71683004170723_1_alg».proof.Proof.Gen.KernelIdeal.Launch
import proofs.«108443_j71683004170723_1_alg».proof.Proof.Gen.KernelIdeal.Points
import proofs.«108443_j71683004170723_1_alg».proof.Proof.Gen.KernelIdeal.Frame
import proofs.«108443_j71683004170723_1_alg».proof.Proof.Gen.ReferenceIdeal
import proofs.«108443_j71683004170723_1_alg».proof.Proof.Gen.Pre_finite_inputs
import proofs.«108443_j71683004170723_1_alg».proof.Proof.Gen.ReferenceIdeal.Run
import proofs.«108443_j71683004170723_1_alg».proof.Proof.Gen.ReferenceIdeal.Read
import proofs.«108443_j71683004170723_1_alg».proof.Proof.Result
import Idealize.ShloMosaic.Adequacy
import Idealize.ShloMosaic.Init

noncomputable section

namespace Cert.Proof

open Idealize.ShloMosaic Idealize.SL.Sem Cert.Kernel

/-- The class scores both programs return, as the reference's last stage of the kernel program's launch memory. -/
def scores (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v60) :=
  Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree => ⟨scores m,
    (θ_run Cert.KernelIdeal.defs _ _).mono
      (fun r h c => ⟨(h c).1.trans (Cert.KernelIdeal.Result.result_eq m ρ c), (h c).2⟩)
      (Cert.KernelIdeal.GenResult.run_result m ρ),
    (θ_run Cert.ReferenceIdeal.defs _ _).mono
      (fun r h c => ⟨(h c).1.trans ((Cert.ReferenceIdeal.Read.val_main_v64_eq m' c).trans (by
          obtain ⟨e0, e1, e2, e3, e4, e5, e6, e7, e8, e9⟩ := hagree c
          rw [e0, e1, e2, e3, e4, e5, e6, e7, e8, e9]
          rfl)), (h c).2⟩)
      (Cert.ReferenceIdeal.Value.run (F := Ideal) m' ρ')⟩⟩

end Cert.Proof

end
